-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x128 : Shape := ⟨2, ![32768, 128]⟩
abbrev S65536x128 : Shape := ⟨2, ![65536, 128]⟩
abbrev S1048576 : Shape := ⟨1, ![1048576]⟩
abbrev S32768 : Shape := ⟨1, ![32768]⟩
abbrev S32768x32 : Shape := ⟨2, ![32768, 32]⟩
abbrev S_ : Shape := ⟨0, ![]⟩

class Facts : Prop where
  bcast_S_S32768x128 : S_.BroadcastsInDim S32768x128 (![] : Fin 0 → Fin S32768x128.rank)
  reducesTo_S32768x128_S_d0_1 : S32768x128.ReducesTo [0, 1] S_
  h_S_ : 0 < S_.numel
  bcast_S_S65536x128 : S_.BroadcastsInDim S65536x128 (![] : Fin 0 → Fin S65536x128.rank)
  reducesTo_S65536x128_S_d0_1 : S65536x128.ReducesTo [0, 1] S_
  bcast_S_S1048576 : S_.BroadcastsInDim S1048576 (![] : Fin 0 → Fin S1048576.rank)
  reducesTo_S1048576_S_d0 : S1048576.ReducesTo [0] S_

variable [Facts]

def fn {F : FTy → Type} [FloatOps F] (main_arg0 : FVec F S32768x128 .f32) (main_arg1 : FVec F S65536x128 .f32) (main_arg2 : FVec F S1048576 .f32) (main_arg3 : IVec S32768 32) (main_arg4 : IVec S32768x32 32) (main_arg5 : IVec S32768x32 32) : IVec S_ 1 :=
  let main_v0 : FVec F S32768x128 .f32 := Host.absf main_arg0
  let main_cst : FVec F S_ .f32 := constant S_ .f32 0x7F800000#32
  let main_v1 : FVec F S32768x128 .f32 := broadcastInDim S32768x128 ![] bcast_S_S32768x128 main_cst
  let main_v2 : IVec S32768x128 1 := cmpf .olt main_v0 main_v1
  let main_c : IVec S_ 1 := constantI S_ 1 1#1
  let main_v3 : IVec S_ 1 := (fun x v => Host.reduce IntOp.andi x v reducesTo_S32768x128_S_d0_1 h_S_) main_v2 main_c
  let main_v4 : FVec F S65536x128 .f32 := Host.absf main_arg1
  let main_cst_0 : FVec F S_ .f32 := constant S_ .f32 0x7F800000#32
  let main_v5 : FVec F S65536x128 .f32 := broadcastInDim S65536x128 ![] bcast_S_S65536x128 main_cst_0
  let main_v6 : IVec S65536x128 1 := cmpf .olt main_v4 main_v5
  let main_c_1 : IVec S_ 1 := constantI S_ 1 1#1
  let main_v7 : IVec S_ 1 := (fun x v => Host.reduce IntOp.andi x v reducesTo_S65536x128_S_d0_1 h_S_) main_v6 main_c_1
  let main_v8 : IVec S_ 1 := andi main_v3 main_v7
  let main_v9 : FVec F S1048576 .f32 := Host.absf main_arg2
  let main_cst_2 : FVec F S_ .f32 := constant S_ .f32 0x7F800000#32
  let main_v10 : FVec F S1048576 .f32 := broadcastInDim S1048576 ![] bcast_S_S1048576 main_cst_2
  let main_v11 : IVec S1048576 1 := cmpf .olt main_v9 main_v10
  let main_c_3 : IVec S_ 1 := constantI S_ 1 1#1
  let main_v12 : IVec S_ 1 := (fun x v => Host.reduce IntOp.andi x v reducesTo_S1048576_S_d0 h_S_) main_v11 main_c_3
  let main_v13 : IVec S_ 1 := andi main_v8 main_v12
  main_v13
-- ==== Kernel.lean ====
abbrev S32768x128 : Shape := ⟨2, ![32768, 128]⟩
abbrev S65536x128 : Shape := ⟨2, ![65536, 128]⟩
abbrev S1048576 : Shape := ⟨1, ![1048576]⟩
abbrev S32768 : Shape := ⟨1, ![32768]⟩
abbrev S32768x32 : Shape := ⟨2, ![32768, 32]⟩
abbrev S_ : Shape := ⟨0, ![]⟩
abbrev S32768x32x1 : Shape := ⟨3, ![32768, 32, 1]⟩
abbrev S32768x32x128 : Shape := ⟨3, ![32768, 32, 128]⟩
abbrev S256x32x128 : Shape := ⟨3, ![256, 32, 128]⟩
abbrev S256x32 : Shape := ⟨2, ![256, 32]⟩
abbrev S256x128 : Shape := ⟨2, ![256, 128]⟩
abbrev S256x1x128 : Shape := ⟨3, ![256, 1, 128]⟩
abbrev S256x32x1 : Shape := ⟨3, ![256, 32, 1]⟩
abbrev S32768x1 : Shape := ⟨2, ![32768, 1]⟩

abbrev nBuf : Space → Nat
  | .hbm => 34
  | .vmem => 6
  | .smem => 0
  | _ => 0

abbrev bufTy : (tb : Table) → Fin (tcTables nBuf tb) → BufTy
  | .hbm, ⟨0, _⟩ => ⟨S32768x128, .f32⟩
  | .hbm, ⟨1, _⟩ => ⟨S65536x128, .f32⟩
  | .hbm, ⟨2, _⟩ => ⟨S1048576, .f32⟩
  | .hbm, ⟨3, _⟩ => ⟨S32768, .i32⟩
  | .hbm, ⟨4, _⟩ => ⟨S32768x32, .i32⟩
  | .hbm, ⟨5, _⟩ => ⟨S32768x32, .i32⟩
  | .hbm, ⟨6, _⟩ => ⟨S_, .i32⟩
  | .hbm, ⟨7, _⟩ => ⟨S32768x32, .i32⟩
  | .hbm, ⟨8, _⟩ => ⟨S32768x32, .i1⟩
  | .hbm, ⟨9, _⟩ => ⟨S_, .i32⟩
  | .hbm, ⟨10, _⟩ => ⟨S32768x32, .i32⟩
  | .hbm, ⟨11, _⟩ => ⟨S32768x32, .i32⟩
  | .hbm, ⟨12, _⟩ => ⟨S32768x32, .i32⟩
  | .hbm, ⟨13, _⟩ => ⟨S32768x32x1, .i32⟩
  | .hbm, ⟨14, _⟩ => ⟨S32768x32x128, .f32⟩
  | .hbm, ⟨15, _⟩ => ⟨S_, .i32⟩
  | .hbm, ⟨16, _⟩ => ⟨S32768x32, .i32⟩
  | .hbm, ⟨17, _⟩ => ⟨S32768x32, .i1⟩
  | .hbm, ⟨18, _⟩ => ⟨S_, .i32⟩
  | .hbm, ⟨19, _⟩ => ⟨S32768x32, .i32⟩
  | .hbm, ⟨20, _⟩ => ⟨S32768x32, .i32⟩
  | .hbm, ⟨21, _⟩ => ⟨S32768x32, .i32⟩
  | .hbm, ⟨22, _⟩ => ⟨S32768x32x1, .i32⟩
  | .hbm, ⟨23, _⟩ => ⟨S32768x32, .f32⟩
  | .hbm, ⟨24, _⟩ => ⟨S32768x128, .f32⟩
  | .hbm, ⟨25, _⟩ => ⟨S_, .i32⟩
  | .hbm, ⟨26, _⟩ => ⟨S32768, .i32⟩
  | .hbm, ⟨27, _⟩ => ⟨S32768, .i1⟩
  | .hbm, ⟨28, _⟩ => ⟨S_, .i32⟩
  | .hbm, ⟨29, _⟩ => ⟨S32768, .i32⟩
  | .hbm, ⟨30, _⟩ => ⟨S32768, .i32⟩
  | .hbm, ⟨31, _⟩ => ⟨S32768, .i32⟩
  | .hbm, ⟨32, _⟩ => ⟨S32768x1, .i32⟩
  | .hbm, ⟨33, _⟩ => ⟨S32768x128, .f32⟩
  | .local _ .vmem, ⟨0, _⟩ => ⟨S256x32x128, .f32⟩
  | .local _ .vmem, ⟨1, _⟩ => ⟨S256x32x128, .f32⟩
  | .local _ .vmem, ⟨2, _⟩ => ⟨S256x32, .f32⟩
  | .local _ .vmem, ⟨3, _⟩ => ⟨S256x32, .f32⟩
  | .local _ .vmem, ⟨4, _⟩ => ⟨S256x128, .f32⟩
  | .local _ .vmem, ⟨5, _⟩ => ⟨S256x128, .f32⟩
  | _, _ => ⟨S32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_3 : Ref sig .tc := ⟨.hbm, 25, rfl⟩
abbrev main_v15 : Ref sig .tc := ⟨.hbm, 26, rfl⟩
abbrev main_v16 : Ref sig .tc := ⟨.hbm, 27, rfl⟩
abbrev main_c_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S32768x32 : S_.BroadcastsInDim S32768x32 (![] : Fin 0 → Fin S32768x32.rank)
  bcast_S32768x32_S32768x32x1_0_1 : S32768x32.BroadcastsInDim S32768x32x1 (![0, 1] : Fin 2 → Fin S32768x32x1.rank)
  inb_S256x32x128_S256x32x128_0_0_0 : ∀ a, (![0, 0, 0] : Fin 3 → Nat) a + S256x32x128.size a ≤ S256x32x128.size a
  h_S256x32x128 : 0 < S256x32x128.numel
  shapeCasts_S256x32x128_S256x32x128 : S256x32x128.ShapeCasts S256x32x128
  inb_S256x32_S256x32_0_0 : ∀ a, (![0, 0] : Fin 2 → Nat) a + S256x32.size a ≤ S256x32.size a
  h_S256x32 : 0 < S256x32.numel
  shapeCasts_S256x32_S256x32 : S256x32.ShapeCasts S256x32
  reduces_S256x32x128_S256x128 : S256x32x128.Reduces [1] S256x128
  shapeCasts_S256x128_S256x1x128 : S256x128.ShapeCasts S256x1x128
  broadcasts_S256x1x128_S256x32x128 : S256x1x128.Broadcasts S256x32x128
  shapeCasts_S256x32_S256x32x1 : S256x32.ShapeCasts S256x32x1
  broadcasts_S256x32x1_S256x32x128 : S256x32x1.Broadcasts S256x32x128
  shapeCasts_S256x1x128_S256x128 : S256x1x128.ShapeCasts S256x128
  inb_S256x128_S256x128_0_0 : ∀ a, (![0, 0] : Fin 2 → Nat) a + S256x128.size a ≤ S256x128.size a
  h_S256x128 : 0 < S256x128.numel
  bcast_S_S32768 : S_.BroadcastsInDim S32768 (![] : Fin 0 → Fin S32768.rank)
  bcast_S32768_S32768x1_0 : S32768.BroadcastsInDim S32768x1 (![0] : Fin 1 → Fin S32768x1.rank)
  gather_S65536x128_S32768x32x1_S32768x32x128_2_0_n_n_0_2_1128_wf : GatherDims.WF S65536x128 S32768x32x1 S32768x32x128 [2] [0] [] [0] [] 2 ![1, 128]
  gather_S1048576_S32768x32x1_S32768x32_n_0_n_n_0_2_1_wf : GatherDims.WF S1048576 S32768x32x1 S32768x32 [] [0] [] [0] [] 2 ![1]
  scatter_S32768x128_S32768x1_S32768x128_1_0_0_1_wf : ScatterDims.WF S32768x128 S32768x1 S32768x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x32x128.size a ≤ S32768x32x128.size a
  hwx0_0 : ∀ i : grid0.Coords, EltTy.bits .f32 = 32 ∨ (Rect.block (s := S32768x32x128) S256x32x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x32.size a ≤ S32768x32.size a
  hwx0_1 : ∀ i : grid0.Coords, EltTy.bits .f32 = 32 ∨ (Rect.block (s := S32768x32) S256x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S32768x128.size a
  hwx0_2 : ∀ i : grid0.Coords, EltTy.bits .f32 = 32 ∨ (Rect.block (s := S32768x128) S256x128.size (cc0_transform_2 i) (hinb0_2 i)).WholeWords (EltTy.packing .f32)

variable [Facts₀]

def gather_S65536x128_S32768x32x1_S32768x32x128_2_0_n_n_0_2_1128 : GatherDims S65536x128 S32768x32x1 S32768x32x128 where
  offsetDims := [2]
  collapsedSliceDims := [0]
  operandBatchingDims := []
  startIndicesBatchingDims := []
  startIndexMap := [0]
  indexVectorDim := 2
  sliceSizes := ![1, 128]
  wf := gather_S65536x128_S32768x32x1_S32768x32x128_2_0_n_n_0_2_1128_wf
def gather_S1048576_S32768x32x1_S32768x32_n_0_n_n_0_2_1 : GatherDims S1048576 S32768x32x1 S32768x32 where
  offsetDims := []
  collapsedSliceDims := [0]
  operandBatchingDims := []
  startIndicesBatchingDims := []
  startIndexMap := [0]
  indexVectorDim := 2
  sliceSizes := ![1]
  wf := gather_S1048576_S32768x32x1_S32768x32_n_0_n_n_0_2_1_wf
def scatter_S32768x128_S32768x1_S32768x128_1_0_0_1 : ScatterDims S32768x128 S32768x1 S32768x128 where
  updateWindowDims := [1]
  insertedWindowDims := [0]
  scatterDimsToOperandDims := [0]
  indexVectorDim := 1
  wf := scatter_S32768x128_S32768x1_S32768x128_1_0_0_1_wf

abbrev win0_0 : Pipeline.Window sig grid0 :=
  Pipeline.Window.ofSpec (Memref.whole main_v6) S256x32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S256x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S256x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32768x128 : Shape := ⟨2, ![32768, 128]⟩
abbrev S65536x128 : Shape := ⟨2, ![65536, 128]⟩
abbrev S1048576 : Shape := ⟨1, ![1048576]⟩
abbrev S32768 : Shape := ⟨1, ![32768]⟩
abbrev S32768x32 : Shape := ⟨2, ![32768, 32]⟩
abbrev S_ : Shape := ⟨0, ![]⟩
abbrev S32768x32x1 : Shape := ⟨3, ![32768, 32, 1]⟩
abbrev S32768x32x128 : Shape := ⟨3, ![32768, 32, 128]⟩
abbrev S32768x1x128 : Shape := ⟨3, ![32768, 1, 128]⟩
abbrev S32768x1 : Shape := ⟨2, ![32768, 1]⟩

abbrev nBuf : Space → Nat
  | .hbm => 51
  | .vmem => 0
  | .smem => 0
  | _ => 0

abbrev bufTy : (tb : Table) → Fin (tcTables nBuf tb) → BufTy
  | .hbm, ⟨0, _⟩ => ⟨S32768x128, .f32⟩
  | .hbm, ⟨1, _⟩ => ⟨S65536x128, .f32⟩
  | .hbm, ⟨2, _⟩ => ⟨S1048576, .f32⟩
  | .hbm, ⟨3, _⟩ => ⟨S32768, .i32⟩
  | .hbm, ⟨4, _⟩ => ⟨S32768x32, .i32⟩
  | .hbm, ⟨5, _⟩ => ⟨S32768x32, .i32⟩
  | .hbm, ⟨6, _⟩ => ⟨S_, .i32⟩
  | .hbm, ⟨7, _⟩ => ⟨S32768x32, .i32⟩
  | .hbm, ⟨8, _⟩ => ⟨S32768x32, .i1⟩
  | .hbm, ⟨9, _⟩ => ⟨S_, .i32⟩
  | .hbm, ⟨10, _⟩ => ⟨S32768x32, .i32⟩
  | .hbm, ⟨11, _⟩ => ⟨S32768x32, .i32⟩
  | .hbm, ⟨12, _⟩ => ⟨S32768x32, .i32⟩
  | .hbm, ⟨13, _⟩ => ⟨S32768x32x1, .i32⟩
  | .hbm, ⟨14, _⟩ => ⟨S32768x32x128, .f32⟩
  | .hbm, ⟨15, _⟩ => ⟨S_, .f32⟩
  | .hbm, ⟨16, _⟩ => ⟨S32768x128, .f32⟩
  | .hbm, ⟨17, _⟩ => ⟨S32768x1x128, .f32⟩
  | .hbm, ⟨18, _⟩ => ⟨S_, .i32⟩
  | .hbm, ⟨19, _⟩ => ⟨S32768x32, .i32⟩
  | .hbm, ⟨20, _⟩ => ⟨S32768x32, .i1⟩
  | .hbm, ⟨21, _⟩ => ⟨S_, .i32⟩
  | .hbm, ⟨22, _⟩ => ⟨S32768x32, .i32⟩
  | .hbm, ⟨23, _⟩ => ⟨S32768x32, .i32⟩
  | .hbm, ⟨24, _⟩ => ⟨S32768x32, .i32⟩
  | .hbm, ⟨25, _⟩ => ⟨S32768x32x1, .i32⟩
  | .hbm, ⟨26, _⟩ => ⟨S32768x32, .f32⟩
  | .hbm, ⟨27, _⟩ => ⟨S32768x32x1, .f32⟩
  | .hbm, ⟨28, _⟩ => ⟨S32768x32x128, .f32⟩
  | .hbm, ⟨29, _⟩ => ⟨S32768x32x128, .f32⟩
  | .hbm, ⟨30, _⟩ => ⟨S32768x32x128, .f32⟩
  | .hbm, ⟨31, _⟩ => ⟨S32768x32x128, .f32⟩
  | .hbm, ⟨32, _⟩ => ⟨S32768x32x128, .f32⟩
  | .hbm, ⟨33, _⟩ => ⟨S_, .f32⟩
  | .hbm, ⟨34, _⟩ => ⟨S32768x128, .f32⟩
  | .hbm, ⟨35, _⟩ => ⟨S_, .f32⟩
  | .hbm, ⟨36, _⟩ => ⟨S_, .f32⟩
  | .hbm, ⟨37, _⟩ => ⟨S32768x128, .f32⟩
  | .hbm, ⟨38, _⟩ => ⟨S32768x128, .f32⟩
  | .hbm, ⟨39, _⟩ => ⟨S32768x128, .f32⟩
  | .hbm, ⟨40, _⟩ => ⟨S32768x128, .f32⟩
  | .hbm, ⟨41, _⟩ => ⟨S32768x128, .f32⟩
  | .hbm, ⟨42, _⟩ => ⟨S_, .i32⟩
  | .hbm, ⟨43, _⟩ => ⟨S32768, .i32⟩
  | .hbm, ⟨44, _⟩ => ⟨S32768, .i1⟩
  | .hbm, ⟨45, _⟩ => ⟨S_, .i32⟩
  | .hbm, ⟨46, _⟩ => ⟨S32768, .i32⟩
  | .hbm, ⟨47, _⟩ => ⟨S32768, .i32⟩
  | .hbm, ⟨48, _⟩ => ⟨S32768, .i32⟩
  | .hbm, ⟨49, _⟩ => ⟨S32768x1, .i32⟩
  | .hbm, ⟨50, _⟩ => ⟨S32768x128, .f32⟩
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_cst_4 : Ref sig .tc := ⟨.hbm, 35, rfl⟩
abbrev main_call0_v0 : Ref sig .tc := ⟨.hbm, 36, rfl⟩
abbrev main_call0_v1 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩

abbrev nD : Nat := 1
abbrev τ : Topo := Topo.v7x

variable {F : FTy → Type} [FloatOps F]

class Facts₀ : Prop where
  bcast_S_S32768x32 : S_.BroadcastsInDim S32768x32 (![] : Fin 0 → Fin S32768x32.rank)
  bcast_S32768x32_S32768x32x1_0_1 : S32768x32.BroadcastsInDim S32768x32x1 (![0, 1] : Fin 2 → Fin S32768x32x1.rank)
  reducesTo_S32768x32x128_S32768x128_d1 : S32768x32x128.ReducesTo [1] S32768x128
  h_S_ : 0 < S_.numel
  bcast_S32768x128_S32768x1x128_0_2 : S32768x128.BroadcastsInDim S32768x1x128 (![0, 2] : Fin 2 → Fin S32768x1x128.rank)
  bcast_S32768x1x128_S32768x32x128_0_1_2 : S32768x1x128.BroadcastsInDim S32768x32x128 (![0, 1, 2] : Fin 3 → Fin S32768x32x128.rank)
  bcast_S32768x32x1_S32768x32x128_0_1_2 : S32768x32x1.BroadcastsInDim S32768x32x128 (![0, 1, 2] : Fin 3 → Fin S32768x32x128.rank)
  bcast_S_S32768x128 : S_.BroadcastsInDim S32768x128 (![] : Fin 0 → Fin S32768x128.rank)
  shapeCasts_S32768x1x128_S32768x128 : S32768x1x128.ShapeCasts S32768x128
  bcast_S_S32768 : S_.BroadcastsInDim S32768 (![] : Fin 0 → Fin S32768.rank)
  bcast_S32768_S32768x1_0 : S32768.BroadcastsInDim S32768x1 (![0] : Fin 1 → Fin S32768x1.rank)
  gather_S65536x128_S32768x32x1_S32768x32x128_2_0_n_n_0_2_1128_wf : GatherDims.WF S65536x128 S32768x32x1 S32768x32x128 [2] [0] [] [0] [] 2 ![1, 128]
  gather_S1048576_S32768x32x1_S32768x32_n_0_n_n_0_2_1_wf : GatherDims.WF S1048576 S32768x32x1 S32768x32 [] [0] [] [0] [] 2 ![1]
  scatter_S32768x128_S32768x1_S32768x128_1_0_0_1_wf : ScatterDims.WF S32768x128 S32768x1 S32768x128 [1] [0] [0] 1

variable [Facts₀]

def gather_S65536x128_S32768x32x1_S32768x32x128_2_0_n_n_0_2_1128 : GatherDims S65536x128 S32768x32x1 S32768x32x128 where
  offsetDims := [2]
  collapsedSliceDims := [0]
  operandBatchingDims := []
  startIndicesBatchingDims := []
  startIndexMap := [0]
  indexVectorDim := 2
  sliceSizes := ![1, 128]
  wf := gather_S65536x128_S32768x32x1_S32768x32x128_2_0_n_n_0_2_1128_wf
def gather_S1048576_S32768x32x1_S32768x32_n_0_n_n_0_2_1 : GatherDims S1048576 S32768x32x1 S32768x32 where
  offsetDims := []
  collapsedSliceDims := [0]
  operandBatchingDims := []
  startIndicesBatchingDims := []
  startIndexMap := [0]
  indexVectorDim := 2
  sliceSizes := ![1]
  wf := gather_S1048576_S32768x32x1_S32768x32_n_0_n_n_0_2_1_wf
def scatter_S32768x128_S32768x1_S32768x128_1_0_0_1 : ScatterDims S32768x128 S32768x1 S32768x128 where
  updateWindowDims := [1]
  insertedWindowDims := [0]
  scatterDimsToOperandDims := [0]
  indexVectorDim := 1
  wf := scatter_S32768x128_S32768x1_S32768x128_1_0_0_1_wf

class Facts : Prop extends Facts₀ where

variable [Facts]
-- ==== Proof.Spec.lean ====
/-
  The value both programs compute for one output entry (one sum node, one batch lane): the stabilised weighted
  log-sum-exp of the node's 32 children,

      log (max (1e-10, Σₖ exp (xₖ − M) · uₖ)) + M,      M = maxₖ xₖ  (from −∞),

  where `x` holds the children's log-marginals at that lane and `u` the node's 32 edge weights. Stated over the
  extended reals with the float literals kept as their words: the same word stands on both sides and is never evaluated.
-/
import Idealize.ShloMosaic.PureOps.Ideal
import Idealize.ShloMosaic.Lib.ValueIdx

noncomputable section

namespace Cert.Lse

open Idealize.ShloMosaic

/-- The largest of the 32 child values, folded from −∞ (the word `0xFF800000`). -/
def rowMax (x : Fin 32 → Ideal .f32) : Ideal .f32 :=
  (Finset.univ : Finset (Fin 32)).fold max (Ideal.ofBits .f32 0xFF800000#32) x

/-- The weighted log-sum-exp of 32 children, stabilised by their maximum and floored at the word of `1e-10`. -/
def rowLse (x u : Fin 32 → Ideal .f32) : Ideal .f32 :=
  Ideal.log (max (Ideal.ofBits .f32 0x2EDBE6FF#32) (∑ k : Fin 32, Ideal.exp (x k - rowMax x) * u k)) + rowMax x

/-- The whole result array before the scatter: entry (r, q) is the weighted log-sum-exp, over node `r`'s 32 children, of
    the children's values at lane `q` (`ch` : [node, child, lane]) with node `r`'s edge weights (`w` : [node, child]). -/
def lseArr (ch : (⟨3, ![32768, 32, 128]⟩ : Shape).Idx → Ideal .f32) (w : (⟨2, ![32768, 32]⟩ : Shape).Idx → Ideal .f32) :
    (⟨2, ![32768, 128]⟩ : Shape).Idx → Ideal .f32 :=
  fun j => rowLse (fun k => ch (ValueIdx.ix3 (j 0) k (j 1))) (fun k => w (ValueIdx.ix2 (j 0) k))

theorem lseArr_apply (ch : (⟨3, ![32768, 32, 128]⟩ : Shape).Idx → Ideal .f32) (w : (⟨2, ![32768, 32]⟩ : Shape).Idx → Ideal .f32)
    (r : Fin 32768) (q : Fin 128) :
    lseArr ch w (ValueIdx.ix2 r q) = rowLse (fun k => ch (ValueIdx.ix3 r k q)) (fun k => w (ValueIdx.ix2 r k)) := rfl

end Cert.Lse

end
-- ==== Proof.Payload.lean ====
/-
  The kernel body's one stored value, read at an entry. For a block of 256 nodes the body loads the children's values
  `x0` : [256 nodes, 32 children, 128 lanes] and the edge weights `x1` : [256 nodes, 32 children], takes the maximum
  over the child axis, subtracts it, exponentiates, multiplies by the weights broadcast along the lanes, sums over the
  child axis, floors at the word of `1e-10`, takes the logarithm and adds the maximum back. At entry (p, q) that is
  `rowLse` of node `p`'s 32 children at lane `q` and node `p`'s 32 weights: the two reductions over the child axis are
  a fold of `max` and a sum over `k : Fin 32` of the entries (p, k, q), and the two broadcasts read (p, ·, q) ↦ (p, q)
  and (p, k, ·) ↦ (p, k).
-/
import proofs.«145535_j72215580115304_1_alg».proof.Proof.Gen.KernelIdeal.Skeleton
import proofs.«145535_j72215580115304_1_alg».proof.Proof.Spec
import Idealize.ShloMosaic.Lib.ValueIdx
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen Cert.Lse

/-- The reduced index (p, q) with child `k` put back on the child axis is (p, k, q). -/
theorem lift_mid (h : S256x32x128.Reduces [1] S256x128) (p : Fin 256) (q : Fin 128) (k : Fin (S256x32x128.size 1)) :
    h.lift (ix2 p q) k = ix3 p (⟨k.val, k.isLt⟩ : Fin 32) q := by
  funext c; apply Fin.ext
  match c with
  | ⟨0, _⟩ => rfl
  | ⟨1, _⟩ => rfl
  | ⟨2, _⟩ => rfl

/-- A [256, 128] array viewed as [256, 1, 128] and repeated along the child axis reads, at (p, k, q), its entry (p, q):
    the unit axis contributes nothing to the row-major position. -/
theorem maxcol_apply (M : FVec Ideal S256x128 .f32) (p : Fin 256) (k : Fin 32) (q : Fin 128) :
    broadcastTo S256x32x128 (shapeCast S256x1x128 M shapeCasts_S256x128_S256x1x128) broadcasts_S256x1x128_S256x32x128 (ix3 p k q)
      = M (ix2 p q) := by
  refine (broadcastTo_apply _ broadcasts_S256x1x128_S256x32x128 (ix3 p k q) (ix3 p (0 : Fin 1) q) (fun a => ?_)).trans ?_
  · match a with
    | ⟨0, _⟩ => show p.val = if (256 : Nat) = 1 then 0 else p.val; rw [if_neg (by decide)]
    | ⟨1, _⟩ => show 0 = if (1 : Nat) = 1 then 0 else k.val; rw [if_pos rfl]
    | ⟨2, _⟩ => show q.val = if (128 : Nat) = 1 then 0 else q.val; rw [if_neg (by decide)]
  · refine shapeCast_apply M shapeCasts_S256x128_S256x1x128 (ix3 p (0 : Fin 1) q) (ix2 p q) ?_
    rw [Shape.rowMajor_val_two, Shape.rowMajor_val_three]
    show p.val * 128 + q.val = (p.val * 1 + 0) * 128 + q.val
    omega

/-- A [256, 32] array viewed as [256, 32, 1] and repeated along the lanes reads, at (p, k, q), its entry (p, k). -/
theorem wcol_apply (u : FVec Ideal S256x32 .f32) (p : Fin 256) (k : Fin 32) (q : Fin 128) :
    broadcastTo S256x32x128 (shapeCast S256x32x1 u shapeCasts_S256x32_S256x32x1) broadcasts_S256x32x1_S256x32x128 (ix3 p k q)
      = u (ix2 p k) := by
  refine (broadcastTo_apply _ broadcasts_S256x32x1_S256x32x128 (ix3 p k q) (ix3 p k (0 : Fin 1)) (fun a => ?_)).trans ?_
  · match a with
    | ⟨0, _⟩ => show p.val = if (256 : Nat) = 1 then 0 else p.val; rw [if_neg (by decide)]
    | ⟨1, _⟩ => show k.val = if (32 : Nat) = 1 then 0 else k.val; rw [if_neg (by decide)]
    | ⟨2, _⟩ => show 0 = if (1 : Nat) = 1 then 0 else q.val; rw [if_pos rfl]
  · refine shapeCast_apply u shapeCasts_S256x32_S256x32x1 (ix3 p k (0 : Fin 1)) (ix2 p k) ?_
    rw [Shape.rowMajor_val_two, Shape.rowMajor_val_three]
    show p.val * 32 + k.val = (p.val * 32 + k.val) * 1 + 0
    omega

/-- The maximum over the child axis from −∞, at (p, q): the fold of `max` over node `p`'s 32 children at lane `q`. -/
theorem max_apply (x0 : FVec Ideal S256x32x128 .f32) (hφ : FKind.Formats .f32) (hacc : (0xFF800000#32 : BitVec 32) = FKind.maximumf.neutral .f32 hφ)
    (p : Fin 256) (q : Fin 128) :
    multiReduction .maximumf [1] S256x128 x0 0xFF800000#32 reduces_S256x32x128_S256x128 hφ hacc (ix2 p q)
      = rowMax (fun k => x0 (ix3 p k q)) := by
  rw [Ideal.multiReduction_maximumf_single]
  unfold rowMax
  refine congrArg (fun f => Finset.fold max (Ideal.ofBits .f32 0xFF800000#32) f (Finset.univ : Finset (Fin 32))) ?_
  funext k
  exact congrArg x0 (lift_mid reduces_S256x32x128_S256x128 p q k)

/-- THE BODY'S VALUE AT AN ENTRY: the stored block at (p, q) is the weighted log-sum-exp of node `p`'s children at lane `q`. -/
theorem pay_apply (x0 : Vec Ideal S256x32x128 .f32) (x1 : Vec Ideal S256x32 .f32) (p : Fin 256) (q : Fin 128) :
    k0_pay1 (F := Ideal) x0 x1 (ix2 p q) = rowLse (fun k => x0 (ix3 p k q)) (fun k => x1 (ix2 p k)) := by
  unfold k0_pay1
  dsimp only
  -- the casts to the same shape, and the cast to [256, 1, 128] and back, are the identity
  simp only [shapeCast_self, shapeCast_shapeCast]
  show Ideal.log (max (Ideal.ofBits .f32 0x2EDBE6FF#32)
        (multiReduction (F := Ideal) (φ := .f32) .add [1] S256x128 _ (0x00000000#32) reduces_S256x32x128_S256x128 _ _ (ix2 p q)))
      + multiReduction (F := Ideal) (φ := .f32) .maximumf [1] S256x128 x0 (0xFF800000#32) reduces_S256x32x128_S256x128 _ _ (ix2 p q) = _
  rw [max_apply x0 (.inl rfl) rfl, Ideal.multiReduction_add_single _ (0x00000000#32) reduces_S256x32x128_S256x128 (.inl rfl) rfl]
  unfold rowLse
  refine congrArg (fun s => Ideal.log (max (Ideal.ofBits .f32 0x2EDBE6FF#32) s) + rowMax fun k => x0 (ix3 p k q)) ?_
  -- the summand at child k: exp (x(p,k,q) − M(p,q)) · u(p,k)
  refine Finset.sum_congr rfl fun k _ => ?_
  rw [lift_mid]
  show Ideal.exp (x0 (ix3 p ⟨k.val, k.isLt⟩ q) - broadcastTo S256x32x128 _ broadcasts_S256x1x128_S256x32x128 (ix3 p ⟨k.val, k.isLt⟩ q))
      * broadcastTo S256x32x128 _ broadcasts_S256x32x1_S256x32x128 (ix3 p ⟨k.val, k.isLt⟩ q) = _
  rw [maxcol_apply, wcol_apply, max_apply x0 (.inl rfl) rfl]
  rfl

end Cert.KernelIdeal.Pay

end
-- ==== Proof.RefLse.lean ====
/-
  The reference's value before its scatter, read at an entry. Its host operations are the same formula as the kernel
  body's, on whole arrays: with `ch` the gathered children's values [32768 nodes, 32 children, 128 lanes] and `w` the
  gathered edge weights [32768, 32], the array it scatters is, at (r, q),
  `log (max (1e-10, 0 + Σₖ exp (ch(r,k,q) − M(r,q)) · w(r,k))) + M(r,q)` with `M(r,q)` the fold of `max` from −∞ over
  `k`: `rowLse` of node `r`'s children at lane `q`. The generated stage lemmas read each operation at an index; what is
  done here is the index bookkeeping of the broadcasts and the reshape, the host's maximum over the child axis as a fold, and
  the zero initial value of the sum.
-/
import proofs.«145535_j72215580115304_1_alg».proof.Proof.Gen.ReferenceIdeal.Read
import proofs.«145535_j72215580115304_1_alg».proof.Proof.Spec
import Idealize.ShloMosaic.Lib.ValueIdx
import Idealize.ShloMosaic.Lib.Pipeline.Value
import Idealize.ShloMosaic.PureOps.Ideal.Laws

noncomputable section

namespace Cert.ReferenceIdeal.RefLse

open Idealize.ShloMosaic Idealize.ShloMosaic.ValueIdx Cert.ReferenceIdeal Cert.ReferenceIdeal.Gen Cert.ReferenceIdeal.Read Cert.Lse

/-- The reduced index (r, q) with child `k` put back on the child axis is (r, k, q). -/
theorem lift_mid (h : S32768x32x128.Reduces [1] S32768x128) (r : Fin 32768) (q : Fin 128) (k : Fin (S32768x32x128.size 1)) :
    h.lift (ix2 r q) k = ix3 r (⟨k.val, k.isLt⟩ : Fin 32) q := by
  funext c; apply Fin.ext
  match c with
  | ⟨0, _⟩ => rfl
  | ⟨1, _⟩ => rfl
  | ⟨2, _⟩ => rfl

/-! The composed index maps of the generated stages, at coordinates. -/

theorem idx22 (r : Fin 32768) (q : Fin 128) (k : Fin 32) : idx_main_v22 (ix2 r q) k = ix3 r k q :=
  funext fun a => Fin.ext (by match a with | ⟨0, _⟩ => rfl | ⟨1, _⟩ => rfl | ⟨2, _⟩ => rfl)
theorem idx17 (r : Fin 32768) (k : Fin 32) (q : Fin 128) : idx_main_v17 (ix3 r k q) = ix3 r (0 : Fin 1) q :=
  funext fun a => Fin.ext (by match a with | ⟨0, _⟩ => rfl | ⟨1, _⟩ => rfl | ⟨2, _⟩ => rfl)
theorem idx8 (r : Fin 32768) (q : Fin 128) : idx_main_v8 (ix3 r (0 : Fin 1) q) = ix2 r q :=
  funext fun a => Fin.ext (by match a with | ⟨0, _⟩ => rfl | ⟨1, _⟩ => rfl)
theorem idx20 (r : Fin 32768) (k : Fin 32) (q : Fin 128) : idx_main_v20 (ix3 r k q) = ix3 r k (0 : Fin 1) :=
  funext fun a => Fin.ext (by match a with | ⟨0, _⟩ => rfl | ⟨1, _⟩ => rfl | ⟨2, _⟩ => rfl)
theorem idx16 (r : Fin 32768) (k : Fin 32) : idx_main_v16 (ix3 r k (0 : Fin 1)) = ix2 r k :=
  funext fun a => Fin.ext (by match a with | ⟨0, _⟩ => rfl | ⟨1, _⟩ => rfl)
/-- The reshape [32768, 1, 128] → [32768, 128] at (r, q): position r·128 + q is row r, lane q. -/
theorem idx25 (r : Fin 32768) (q : Fin 128) : idx_main_v25 (ix2 r q) = ix3 r (0 : Fin 1) q :=
  funext fun a => Fin.ext (by
    have hr : r.val < 32768 := r.isLt
    have hq : q.val < 128 := q.isLt
    match a with
    | ⟨0, _⟩ => show (r.val * 128 + q.val) / 128 = r.val; omega
    | ⟨1, _⟩ => rfl
    | ⟨2, _⟩ => show (r.val * 128 + q.val) % 128 = q.val; omega)

/-- The host's maximum over the child axis from −∞, at (r, q): the fold of `max` over node `r`'s 32 children at lane `q`. -/
theorem max_apply (x1 : (⟨S65536x128, .f32⟩ : BufTy).Contents (Elt Ideal)) (x4 : (⟨S32768x32, .i32⟩ : BufTy).Contents (Elt Ideal))
    (r : Fin 32768) (q : Fin 128) :
    val_main_v7 (F := Ideal) x1 x4 (ix2 r q) = rowMax (fun k => val_main_v6 (F := Ideal) x1 x4 (ix3 r k q)) := by
  unfold val_main_v7
  generalize val_main_v6 (F := Ideal) x1 x4 = ch
  refine (Host.reduce_eq_fold_single (FloatOps.maximumf (F := Ideal) (φ := .f32)) ch _ reducesTo_S32768x32x128_S32768x128_d1 (by decide) h_S_ (ix2 r q)).trans ?_
  unfold rowMax
  refine congrArg (fun f => Finset.fold max (Ideal.ofBits .f32 0xFF800000#32) f (Finset.univ : Finset (Fin 32))) ?_
  funext k
  exact congrArg ch (lift_mid _ r q k)

/-- THE REFERENCE'S VALUE AT AN ENTRY, over its two gathered arrays. -/
theorem ref_apply (x1 : (⟨S65536x128, .f32⟩ : BufTy).Contents (Elt Ideal)) (x2 : (⟨S1048576, .f32⟩ : BufTy).Contents (Elt Ideal))
    (x4 x5 : (⟨S32768x32, .i32⟩ : BufTy).Contents (Elt Ideal)) (r : Fin 32768) (q : Fin 128) :
    val_main_v26 (F := Ideal) x1 x2 x4 x5 (ix2 r q)
      = rowLse (fun k => val_main_v6 (F := Ideal) x1 x4 (ix3 r k q)) (fun k => val_main_v15 (F := Ideal) x2 x5 (ix2 r k)) := by
  rw [val_main_v26_apply, val_main_v24_apply, val_main_v23_apply, val_main_v22_apply, val_main_v25_apply, val_main_v8_apply,
    val_main_call0_v1_apply, val_main_call0_v0_apply, val_main_cst_4_apply, val_main_cst_3_apply]
  simp only [val_main_v21_apply, val_main_v19_apply, val_main_v18_apply, val_main_v17_apply, val_main_v8_apply, val_main_v20_apply,
    val_main_v16_apply, idx22, idx17, idx8, idx20, idx16, idx25, max_apply]
  simp only [Ideal.addf_def, Ideal.hostUnary_log_def, Ideal.maximumf_def, Ideal.ofBits_def, Ideal.mulf_def, Ideal.hostUnary_exp_def,
    Ideal.subf_def, Ideal.ofBits_zero_f32, zero_add]
  rfl

/-- As whole arrays: the array the reference scatters is `lseArr` of its two gathered arrays. -/
theorem ref_eq (x1 : (⟨S65536x128, .f32⟩ : BufTy).Contents (Elt Ideal)) (x2 : (⟨S1048576, .f32⟩ : BufTy).Contents (Elt Ideal))
    (x4 x5 : (⟨S32768x32, .i32⟩ : BufTy).Contents (Elt Ideal)) :
    val_main_v26 (F := Ideal) x1 x2 x4 x5 = lseArr (val_main_v6 (F := Ideal) x1 x4) (val_main_v15 (F := Ideal) x2 x5) := by
  funext j
  obtain ⟨r, q, rfl⟩ : ∃ (r : Fin 32768) (q : Fin 128), j = ix2 r q := ⟨j 0, j 1, eq_ix2 j⟩
  exact ref_apply x1 x2 x4 x5 r q

end Cert.ReferenceIdeal.RefLse

end
-- ==== Proof.KernelValue.lean ====
/-
  What the idealized kernel program leaves in its result, as one function of its arguments.

  The program gathers the children's values `ch` = element_mars[cids] : [32768, 32, 128] and the edge weights
  `w` = params[pids] : [32768, 32] on the host, runs the reduction kernel on a grid of 128 points — point `t` reads
  rows 256·t … 256·t + 255 of both arrays and writes the same rows of its [32768, 128] output —, and scatters that output
  into node_mars at the rows nids. Three steps:
  * a point's block: at (p, q) the body's stored value is `rowLse` of the block's row `p` (the payload lemma), and row `p`
    of point `t`'s blocks is row 256·t + p of the arrays, so the block written back is block `t` of `lseArr ch w`;
  * the 128 blocks tile the output (row `r` lies in the block of point r / 256), so after the region the output array is
    `lseArr ch w`;
  * the host operations before the region are the reference's own gathers, and those after it the reference's own
    scatter, so the result is the reference's last stage over the same arguments once its scattered array is known to be
    `lseArr` of the gathered arrays.
-/
import proofs.«145535_j72215580115304_1_alg».proof.Proof.Gen.KernelIdeal.Frame
import proofs.«145535_j72215580115304_1_alg».proof.Proof.Gen.ReferenceIdeal.Read
import proofs.«145535_j72215580115304_1_alg».proof.Proof.Payload
import proofs.«145535_j72215580115304_1_alg».proof.Proof.RefLse
import Idealize.ShloMosaic.Lib.ValueIdx
import Idealize.ShloMosaic.Lib.Pipeline.Value
import Idealize.ShloMosaic.Lib.StableHlo.Run

set_option maxRecDepth 16384

noncomputable section

namespace Cert.KernelIdeal.KVal

open Idealize.ShloMosaic Idealize.ShloMosaic.TcCoe Idealize.ShloMosaic.ValueIdx Idealize.SL.Sem Idealize.ShloMosaic.StableHlo
open Idealize.ShloMosaic.Pipeline (Dat)
open Cert.KernelIdeal Cert.KernelIdeal.Gen Cert.Lse

variable (m : (ℓ : Loc nD τ sig) → Buf (Elt Ideal) ℓ) (ρ : Dev nD → PrngReg)

/-- The offsets of the body's three whole-buffer accesses are zero. -/
theorem hz2 : (![0, 0] : Fin 2 → Nat) = fun _ => 0 := funext fun a => by fin_cases a <;> rfl
theorem hz3 : (![0, 0, 0] : Fin 3 → Nat) = fun _ => 0 := funext fun a => by fin_cases a <;> rfl

/-- The three index maps over the grid: point `t` takes block `t` along the node axis and block 0 along every other axis. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is block `t` of `lseArr` of the two gathered arrays as the region finds them. -/
theorem flushed_eq (c : Dev nD) (t : Fin cfg0.N) :
    (dats m 0 c).flushed 2 t = ((cfg0.win 2).blk t).view.read (Elt Ideal) (lseArr (V m c main_v6) (V m c main_v13)) := by
  show (cfg0.win 2).cut (grid0.coords t) ((dats m 0 c).after 2 t) = _
  rw [after0_2]
  unfold out0_2
  rw [View.canon_unit_zero hz2]
  simp only [View.ld_unit_zero (S := S256x32x128) hz3, View.ld_unit_zero (S := S256x32) hz2]
  funext j
  obtain ⟨p, q, rfl⟩ : ∃ (p : Fin 256) (q : Fin 128), j = ix2 p q := ⟨j 0, j 1, eq_ix2 j⟩
  obtain ⟨e00, e01, e02, e10, e11, e20, e21⟩ := idx_facts t
  have ht : t.val < 128 := Nat.lt_of_lt_of_eq t.isLt N_0
  have hp : p.val < 256 := p.isLt
  let r : Fin 32768 := ⟨t.val * 256 + p.val, by omega⟩
  have hE2 : ((cfg0.win 2).blk t).view.emb (ix2 p q) = ix2 r q := by
    funext a; apply Fin.ext
    match a with
    | ⟨0, _⟩ => show win0_2.index t (0 : Fin 2) * 256 + 1 * p.val = t.val * 256 + p.val; omega
    | ⟨1, _⟩ => show win0_2.index t (1 : Fin 2) * 128 + 1 * q.val = q.val; omega
  have hE0 : ∀ k : Fin 32, ((cfg0.win 0).blk t).view.emb (ix3 p k q) = ix3 r k q := fun k => by
    funext a; apply Fin.ext
    match a with
    | ⟨0, _⟩ => show win0_0.index t (0 : Fin 3) * 256 + 1 * p.val = t.val * 256 + p.val; omega
    | ⟨1, _⟩ => show win0_0.index t (1 : Fin 3) * 32 + 1 * k.val = k.val; omega
    | ⟨2, _⟩ => show win0_0.index t (2 : Fin 3) * 128 + 1 * q.val = q.val; omega
  have hE1 : ∀ k : Fin 32, ((cfg0.win 1).blk t).view.emb (ix2 p k) = ix2 r k := fun k => by
    funext a; apply Fin.ext
    match a with
    | ⟨0, _⟩ => show win0_1.index t (0 : Fin 2) * 256 + 1 * p.val = t.val * 256 + p.val; omega
    | ⟨1, _⟩ => show win0_1.index t (1 : Fin 2) * 32 + 1 * k.val = k.val; omega
  show k0_pay1 (F := Ideal) (iblk m c 0 t) (iblk m c 1 t) (ix2 p q)
      = lseArr (V m c main_v6) (V m c main_v13) (((cfg0.win 2).blk t).view.emb (ix2 p q))
  rw [hE2, lseArr_apply]
  refine (Cert.KernelIdeal.Pay.pay_apply (iblk m c 0 t) (iblk m c 1 t) p q).trans ?_
  refine congrArg₂ rowLse (funext fun k => ?_) (funext fun k => ?_)
  · show V m c main_v6 (((cfg0.win 0).blk t).view.emb (ix3 p k q)) = V m c main_v6 (ix3 r k q)
    rw [hE0]
  · show V m c main_v13 (((cfg0.win 1).blk t).view.emb (ix2 p k)) = V m c main_v13 (ix2 r k)
    rw [hE1]

/-- An index of the output array lies in point `t`'s block iff each coordinate lies in the block's range on its axis. -/
theorem mem_blk (t : Fin cfg0.N) (i : S32768x128.Idx) :
    i ∈ ((cfg0.win 2).blk t).view.set ↔ ∀ a : Fin 2, win0_2.index t a * S256x128.size a ≤ (i a).val ∧ (i a).val < win0_2.index t a * S256x128.size a + S256x128.size a := by
  show i ∈ ((View.whole main_v14).slice (win0_2.rect t)).set ↔ _
  rw [View.set_slice_whole, Rect.mem_set_unit]
  exact Iff.rfl

/-- Every index of the output array lies in some point's block: row `r` in the block of point `r / 256`. -/
theorem cover (i : S32768x128.Idx) : ∃ t : Fin cfg0.N, (cfg0.win 2).flush t = true ∧ i ∈ ((cfg0.win 2).blk t).view.set := by
  have hi0 : (i 0).val < 32768 := (i 0).isLt
  have hi1 : (i 1).val < 128 := (i 1).isLt
  have hN : cfg0.N = 128 := N_0
  let t : Fin cfg0.N := ⟨(i 0).val / 256, Nat.lt_of_lt_of_eq (by omega : (i 0).val / 256 < 128) hN.symm⟩
  obtain ⟨-, -, -, -, -, e20, e21⟩ := idx_facts t
  have e20' : win0_2.index t (0 : Fin 2) = (i 0).val / 256 := e20
  refine ⟨t, flush0_2 t, ?_⟩
  rw [mem_blk]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 128 ≤ (i 1).val ∧ (i 1).val < win0_2.index t (1 : Fin 2) * 128 + 128; omega

/-- THE OUTPUT ARRAY after the region. -/
theorem final (c : Dev nD) : (dats m 0 c).arrAt 2 cfg0.N = lseArr (V m c main_v6) (V m c main_v13) :=
  (dats m 0 c).arrAt_eq_of_cover 2 _ (fun t _ => flushed_eq m c t) cover

/-- The children's values the region finds: the reference's gather of element_mars at the wrapped child ids. -/
theorem V_v6 (c : Dev nD) : V m c main_v6
    = Cert.ReferenceIdeal.Read.val_main_v6 (F := Ideal) (m ((c.tc : Thread nD τ).loc main_arg1)) (m ((c.tc : Thread nD τ).loc main_arg4)) := by
  show StableHlo.after hostOps0 (fun b => m (c, b)) (Proc.devRef .tc main_v6) = _
  after_results
  rfl

/-- The edge weights the region finds: the reference's gather of params at the wrapped parameter ids. -/
theorem V_v13 (c : Dev nD) : V m c main_v13
    = Cert.ReferenceIdeal.Read.val_main_v15 (F := Ideal) (m ((c.tc : Thread nD τ).loc main_arg2)) (m ((c.tc : Thread nD τ).loc main_arg5)) := by
  show StableHlo.after hostOps0 (fun b => m (c, b)) (Proc.devRef .tc main_v13) = _
  after_results
  rfl

/-- THE RESULT after the host operations that follow the region: the scatter of the region's output into node_mars at the
    wrapped node ids, which is the reference's last stage over the same six arguments. -/
theorem result_eq (c : Dev nD) :
    Pipeline.afterTail₀ cfgs (dats m) 0 (V0 m) [hostOps1] c main_v21
      = Cert.ReferenceIdeal.Read.val_main_v33 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) := by
  unfold Pipeline.afterTail₀
  show StableHlo.after hostOps1 _ (Proc.devRef .tc main_v21) = _
  after_results
  have e0 : Pipeline.withArrays (cfgs 0).spec c (V0 m c) (fun w => (dats m 0 c).arrAt w (cfgs 0).N) (Proc.devRef .tc main_arg0)
      = m ((c.tc : Thread nD τ).loc main_arg0) :=
    (Pipeline.withArrays_of_ne _ c (V0 m c) _ main_arg0 (by exact (by decide : ∀ w, Pipeline.arrRef spec0 w ≠ main_arg0))).trans (V_main_arg0 m c)
  have e3 : Pipeline.withArrays (cfgs 0).spec c (V0 m c) (fun w => (dats m 0 c).arrAt w (cfgs 0).N) (Proc.devRef .tc main_arg3)
      = m ((c.tc : Thread nD τ).loc main_arg3) :=
    (Pipeline.withArrays_of_ne _ c (V0 m c) _ main_arg3 (by exact (by decide : ∀ w, Pipeline.arrRef spec0 w ≠ main_arg3))).trans (V_main_arg3 m c)
  have e14 : Pipeline.withArrays (cfgs 0).spec c (V0 m c) (fun w => (dats m 0 c).arrAt w (cfgs 0).N) (Proc.devRef .tc main_v14)
      = lseArr (V m c main_v6) (V m c main_v13) :=
    (Pipeline.withArrays_arr spec0 launch0.win.arr_inj c _ _ 2).trans (final m c)
  rw [e0, e3, e14, V_v6, V_v13, ← Cert.ReferenceIdeal.RefLse.ref_eq]
  rfl

/-- THE RUN, READ: every weakly fair execution of the idealized kernel program terminates with its result at the reference's
    last stage of the arguments, the arguments unchanged. -/
theorem run : θ_run defs (onTc (τ := τ) (main (F := Ideal))) ⟨m, fun _ => 0, ρ⟩ fun r => ∀ c : Dev nD,
      r.2.mem ((c.tc : Thread nD τ).loc main_v21)
        = Cert.ReferenceIdeal.Read.val_main_v33 (F := Ideal) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c =>
    ⟨((h c).2 main_v21 (Pipeline.mem_restRefs_of main_v21 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.KVal

end
-- ==== Proof.lean ====
/-
  The proof of `Cert.Claim`: the Pallas kernel of a probabilistic circuit's sum layer against its jnp reference.

  Both programs compute, for each of 32768 sum nodes and 128 batch lanes, the stabilised weighted log-sum-exp of the
  node's 32 children, `log (max (1e-10, Σₖ exp (xₖ − M) · uₖ)) + M` with `M = maxₖ xₖ`, from the children's values gathered
  out of element_mars and the edge weights gathered out of params, and scatter the rows into node_mars. The kernel program
  does the gathers and the scatter on the host exactly as the reference does and the reduction in a pallas_call over blocks
  of 256 nodes; the reference does the reduction on the host over the whole arrays. At the ideal values the two are the
  same function of the arguments entry by entry — no algebraic law is needed beyond the maximum and the sum over the child
  axis being the same fold and the same sum on both sides, and the reference's sum starting from a zero —, so the
  precondition is never opened.

  * The three frames: the kernel programs' are the generated frame certificates, the reference's its generated run with
    the result dropped.
  * `preserves`: the ideal pass rewrote nothing.
  * `algebraic`: the kernel program's result is the reference's last stage of the arguments (Proof/KernelValue.lean, over
    Proof/Payload.lean for the body and Proof/RefLse.lean for the reference's stages, both against Proof/Spec.lean), and the
    reference's run ends at that stage of arguments that agree.
-/
import proofs.«145535_j72215580115304_1_alg».proof.Defs
import proofs.«145535_j72215580115304_1_alg».proof.Proof.Gen.Kernel
import proofs.«145535_j72215580115304_1_alg».proof.Proof.Gen.Kernel.Frame
import proofs.«145535_j72215580115304_1_alg».proof.Proof.Gen.KernelIdeal
import proofs.«145535_j72215580115304_1_alg».proof.Proof.Gen.KernelIdeal.Frame
import proofs.«145535_j72215580115304_1_alg».proof.Proof.Gen.ReferenceIdeal
import proofs.«145535_j72215580115304_1_alg».proof.Proof.Gen.Pre_finite_inputs
import proofs.«145535_j72215580115304_1_alg».proof.Proof.Gen.ReferenceIdeal.Run
import proofs.«145535_j72215580115304_1_alg».proof.Proof.Gen.ReferenceIdeal.Read
import proofs.«145535_j72215580115304_1_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation: the idealized kernel is the kernel's own text read at the ideal values. -/
theorem preserves : Cert.preserves_Kernel_KernelIdeal := trivial

/-- From arguments that agree, the idealized kernel program ends at the reference's last stage of its arguments
    (`KVal.run`), and the reference's run ends at the same stage of its own: one value. -/
theorem algebraic : Cert.algebraic_KernelIdeal_ReferenceIdeal := by
  intro m ρ m' ρ' _ hagree
  refine ⟨_, Cert.KernelIdeal.KVal.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v33_eq (F := Ideal) _ _ _ _ _ _).trans ?_
  rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
